-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x64 : Shape := ⟨3, ![32, 8192, 64]⟩
abbrev S_ : Shape := ⟨0, ![]⟩

class Facts : Prop where
  bcast_S_S32x8192x64 : S_.BroadcastsInDim S32x8192x64 (![] : Fin 0 → Fin S32x8192x64.rank)
  reducesTo_S32x8192x64_S_d0_1_2 : S32x8192x64.ReducesTo [0, 1, 2] S_
  h_S_ : 0 < S_.numel

variable [Facts]

def fn {F : FTy → Type} [FloatOps F] (main_arg0 : FVec F S32x8192x64 .f32) (main_arg1 : FVec F S32x8192x64 .f32) : IVec S_ 1 :=
  let main_v0 : FVec F S32x8192x64 .f32 := Host.absf main_arg0
  let main_cst : FVec F S_ .f32 := constant S_ .f32 0x7F800000#32
  let main_v1 : FVec F S32x8192x64 .f32 := broadcastInDim S32x8192x64 ![] bcast_S_S32x8192x64 main_cst
  let main_v2 : IVec S32x8192x64 1 := cmpf .olt main_v0 main_v1
  let main_c : IVec S_ 1 := constantI S_ 1 1#1
  let main_v3 : IVec S_ 1 := (fun x v => Host.reduce IntOp.andi x v reducesTo_S32x8192x64_S_d0_1_2 h_S_) main_v2 main_c
  let main_v4 : FVec F S32x8192x64 .f32 := Host.absf main_arg1
  let main_cst_0 : FVec F S_ .f32 := constant S_ .f32 0x7F800000#32
  let main_v5 : FVec F S32x8192x64 .f32 := broadcastInDim S32x8192x64 ![] bcast_S_S32x8192x64 main_cst_0
  let main_v6 : IVec S32x8192x64 1 := cmpf .olt main_v4 main_v5
  let main_c_1 : IVec S_ 1 := constantI S_ 1 1#1
  let main_v7 : IVec S_ 1 := (fun x v => Host.reduce IntOp.andi x v reducesTo_S32x8192x64_S_d0_1_2 h_S_) main_v6 main_c_1
  let main_v8 : IVec S_ 1 := andi main_v3 main_v7
  main_v8
-- ==== Kernel.lean ====
abbrev S32x8192x64 : Shape := ⟨3, ![32, 8192, 64]⟩
abbrev S32x64x64 : Shape := ⟨3, ![32, 64, 64]⟩
abbrev S1x8192x64 : Shape := ⟨3, ![1, 8192, 64]⟩
abbrev S1x64x64 : Shape := ⟨3, ![1, 64, 64]⟩
abbrev S8192x64 : Shape := ⟨2, ![8192, 64]⟩
abbrev S64x64 : Shape := ⟨2, ![64, 64]⟩

abbrev nBuf : Space → Nat
  | .hbm => 4
  | .vmem => 8
  | .smem => 0
  | _ => 0

abbrev bufTy : (tb : Table) → Fin (tcTables nBuf tb) → BufTy
  | .hbm, ⟨0, _⟩ => ⟨S32x8192x64, .f32⟩
  | .hbm, ⟨1, _⟩ => ⟨S32x8192x64, .f32⟩
  | .hbm, ⟨2, _⟩ => ⟨S32x64x64, .f32⟩
  | .hbm, ⟨3, _⟩ => ⟨S32x64x64, .f32⟩
  | .local _ .vmem, ⟨0, _⟩ => ⟨S1x8192x64, .f32⟩
  | .local _ .vmem, ⟨1, _⟩ => ⟨S1x8192x64, .f32⟩
  | .local _ .vmem, ⟨2, _⟩ => ⟨S1x8192x64, .f32⟩
  | .local _ .vmem, ⟨3, _⟩ => ⟨S1x8192x64, .f32⟩
  | .local _ .vmem, ⟨4, _⟩ => ⟨S1x64x64, .f32⟩
  | .local _ .vmem, ⟨5, _⟩ => ⟨S1x64x64, .f32⟩
  | .local _ .vmem, ⟨6, _⟩ => ⟨S1x64x64, .f32⟩
  | .local _ .vmem, ⟨7, _⟩ => ⟨S1x64x64, .f32⟩
  | _, _ => ⟨S32x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S8192x64 : S1x8192x64.ShapeCasts S8192x64
  bitsLt_bf16_f32 : FTy.bits .bf16 < FTy.bits .f32
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  transposes_S64x64_p1_0_S64x64 : S64x64.Transposes [1, 0] S64x64
  dot_S8192x64_S8192x64_S64x64_0_0_1_1_n_n_wf : DotDims.WF S8192x64 S8192x64 S64x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x64.size a ≤ S32x8192x64.size a
  hwx0_0 : ∀ i : grid0.Coords, EltTy.bits .f32 = 32 ∨ (Rect.block (s := S32x8192x64) S1x8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x64.size a ≤ S32x8192x64.size a
  hwx0_1 : ∀ i : grid0.Coords, EltTy.bits .f32 = 32 ∨ (Rect.block (s := S32x8192x64) S1x8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S32x64x64.size a
  hwx0_2 : ∀ i : grid0.Coords, EltTy.bits .f32 = 32 ∨ (Rect.block (s := S32x64x64) S1x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x64.size a ≤ S32x64x64.size a
  hwx0_3 : ∀ i : grid0.Coords, EltTy.bits .f32 = 32 ∨ (Rect.block (s := S32x64x64) S1x64x64.size (cc0_transform_3 i) (hinb0_3 i)).WholeWords (EltTy.packing .f32)

variable [Facts₀]

def dot_S8192x64_S8192x64_S64x64_0_0_1_1_n_n : DotDims S8192x64 S8192x64 S64x64 where
  lhsContracting := [0]
  rhsContracting := [0]
  lhsNonContracting := [1]
  rhsNonContracting := [1]
  lhsBatch := []
  rhsBatch := []
  wf := dot_S8192x64_S8192x64_S64x64_0_0_1_1_n_n_wf

abbrev win0_0 : Pipeline.Window sig grid0 :=
  Pipeline.Window.ofSpec (Memref.whole main_arg0) S1x8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x64x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x64x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x8192x64 : Shape := ⟨3, ![32, 8192, 64]⟩
abbrev S32x64x64 : Shape := ⟨3, ![32, 64, 64]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S32x8192x64, .f32⟩
  | .hbm, ⟨1, _⟩ => ⟨S32x8192x64, .f32⟩
  | .hbm, ⟨2, _⟩ => ⟨S32x64x64, .f32⟩
  | .hbm, ⟨3, _⟩ => ⟨S32x64x64, .f32⟩
  | .hbm, ⟨4, _⟩ => ⟨S32x64x64, .f32⟩
  | .hbm, ⟨5, _⟩ => ⟨S32x64x64, .f32⟩
  | .hbm, ⟨6, _⟩ => ⟨S_, .f32⟩
  | .hbm, ⟨7, _⟩ => ⟨S32x64x64, .f32⟩
  | .hbm, ⟨8, _⟩ => ⟨S32x64x64, .f32⟩
  | .hbm, ⟨9, _⟩ => ⟨S32x64x64, .f32⟩
  | .hbm, ⟨10, _⟩ => ⟨S32x64x64, .f32⟩
  | .hbm, ⟨11, _⟩ => ⟨S_, .f32⟩
  | .hbm, ⟨12, _⟩ => ⟨S32x64x64, .f32⟩
  | .hbm, ⟨13, _⟩ => ⟨S32x64x64, .f32⟩
  | _, _ => ⟨S32x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S_S32x64x64 : S_.BroadcastsInDim S32x64x64 (![] : Fin 0 → Fin S32x64x64.rank)
  transposes_S32x64x64_S32x64x64_0_2_1 : S32x64x64.Transposes [0, 2, 1] S32x64x64
  dot_S32x8192x64_S32x8192x64_S32x64x64_1_1_2_2_0_0_wf : DotDims.WF S32x8192x64 S32x8192x64 S32x64x64 [1] [1] [2] [2] [0] [0]

variable [Facts₀]

def dot_S32x8192x64_S32x8192x64_S32x64x64_1_1_2_2_0_0 : DotDims S32x8192x64 S32x8192x64 S32x64x64 where
  lhsContracting := [1]
  rhsContracting := [1]
  lhsNonContracting := [2]
  rhsNonContracting := [2]
  lhsBatch := [0]
  rhsBatch := [0]
  wf := dot_S32x8192x64_S32x8192x64_S32x64x64_1_1_2_2_0_0_wf

class Facts : Prop extends Facts₀ where

variable [Facts]
-- ==== Proof.GramSpec.lean ====
/-
  The mathematics both programs compute, stated once over literal shapes.

  For arrays `x, y` of shape [32, 8192, 64] (batch, position, feature) the GRAM entry of batch `b` at features
  `(p, q)` is the sum over the 8192 positions `s` of `x[b, s, p] · y[b, s, q]`.  The two results, of shape
  [32, 64, 64], are

    re[b, p, q] = (gram x x b p q + gram y y b p q) · 2⁻¹³
    im[b, p, q] = (gram x y b p q − gram x y b q p) · 2⁻¹³

  where 2⁻¹³ = 1/8192 is the f32 word 0x39000000, kept as that word: it is the same word in both programs and is
  never evaluated.  Everything is over the extended reals; no law beyond the definitions is used, so nothing
  here needs the entries to be finite.
-/
import Idealize.ShloMosaic.PureOps.Ideal
import Idealize.ShloMosaic.Lib.ValueIdx

noncomputable section

namespace Cert.Gram

open Idealize.ShloMosaic Idealize.ShloMosaic.ValueIdx
open scoped BigOperators

/-- [batch, position, feature]. -/
abbrev Seq : Shape := ⟨3, ![32, 8192, 64]⟩
/-- [batch, feature, feature]. -/
abbrev Sq : Shape := ⟨3, ![32, 64, 64]⟩

/-- The Gram entry of batch `b` at features `(p, q)`: the positions summed out. -/
def gram (x y : Seq.Idx → EReal) (b : Fin 32) (p q : Fin 64) : EReal :=
  ∑ s : Fin 8192, x (ix3 b s p) * y (ix3 b s q)

/-- The reciprocal of the sequence length as both programs spell it: the f32 word of 2⁻¹³. -/
def invLen : EReal := Ideal.ofBits .f32 0x39000000#32

/-- The symmetric result at coordinates. -/
def reAt (x y : Seq.Idx → EReal) (b : Fin 32) (p q : Fin 64) : EReal :=
  (gram x x b p q + gram y y b p q) * invLen

/-- The antisymmetric result at coordinates. -/
def imAt (x y : Seq.Idx → EReal) (b : Fin 32) (p q : Fin 64) : EReal :=
  (gram x y b p q - gram x y b q p) * invLen

/-- The symmetric result as an array. -/
def re (x y : Seq.Idx → EReal) : Sq.Idx → EReal := fun i => reAt x y (i 0) (i 1) (i 2)

/-- The antisymmetric result as an array. -/
def im (x y : Seq.Idx → EReal) : Sq.Idx → EReal := fun i => imAt x y (i 0) (i 1) (i 2)

theorem re_ix3 (x y : Seq.Idx → EReal) (b : Fin 32) (p q : Fin 64) : re x y (ix3 b p q) = reAt x y b p q := rfl
theorem im_ix3 (x y : Seq.Idx → EReal) (b : Fin 32) (p q : Fin 64) : im x y (ix3 b p q) = imAt x y b p q := rfl

end Cert.Gram

end
-- ==== Proof.ReferenceGram.lean ====
/-
  The reference's two results are the specification's arrays.

  The reference contracts the position axis of [32, 8192, 64] arrays with the batch axis kept: entry `(b, p, q)` of
  each of its three products is the sum over positions `s` of `l[b, s, p] · r[b, s, q]`, which is `Gram.gram l r b p q`.
  It then adds two of them (resp. subtracts from the third its own transpose in the two feature axes, which
  exchanges `p` and `q`) and multiplies by the broadcast word of 2⁻¹³.  Index by index that is `Gram.reAt`
  (resp. `Gram.imAt`) with nothing rearranged.
-/
import proofs.«143372_j34583076667832_1_alg».proof.Proof.Gen.ReferenceIdeal.Read
import proofs.«143372_j34583076667832_1_alg».proof.Proof.GramSpec

noncomputable section

namespace Cert.ReferenceIdeal.RefGram

open Cert.ReferenceIdeal Cert.ReferenceIdeal.Gen Cert.ReferenceIdeal.Read
open Idealize.ShloMosaic Idealize.ShloMosaic.ValueIdx
open scoped BigOperators

/-! ## The products' operand indices at coordinates -/

theorem lidx0 (b : Fin 32) (p q : Fin 64) (k : Fin 8192) : lidx_main_v0 (ix3 b p q) k = ix3 b k p :=
  funext fun a => Fin.ext (by match a with | ⟨0, _⟩ => rfl | ⟨1, _⟩ => rfl | ⟨2, _⟩ => rfl)
theorem ridx0 (b : Fin 32) (p q : Fin 64) (k : Fin 8192) : ridx_main_v0 (ix3 b p q) k = ix3 b k q :=
  funext fun a => Fin.ext (by match a with | ⟨0, _⟩ => rfl | ⟨1, _⟩ => rfl | ⟨2, _⟩ => rfl)
theorem lidx1 (b : Fin 32) (p q : Fin 64) (k : Fin 8192) : lidx_main_v1 (ix3 b p q) k = ix3 b k p :=
  funext fun a => Fin.ext (by match a with | ⟨0, _⟩ => rfl | ⟨1, _⟩ => rfl | ⟨2, _⟩ => rfl)
theorem ridx1 (b : Fin 32) (p q : Fin 64) (k : Fin 8192) : ridx_main_v1 (ix3 b p q) k = ix3 b k q :=
  funext fun a => Fin.ext (by match a with | ⟨0, _⟩ => rfl | ⟨1, _⟩ => rfl | ⟨2, _⟩ => rfl)
theorem lidx2 (b : Fin 32) (p q : Fin 64) (k : Fin 8192) : lidx_main_v2 (ix3 b p q) k = ix3 b k p :=
  funext fun a => Fin.ext (by match a with | ⟨0, _⟩ => rfl | ⟨1, _⟩ => rfl | ⟨2, _⟩ => rfl)
theorem ridx2 (b : Fin 32) (p q : Fin 64) (k : Fin 8192) : ridx_main_v2 (ix3 b p q) k = ix3 b k q :=
  funext fun a => Fin.ext (by match a with | ⟨0, _⟩ => rfl | ⟨1, _⟩ => rfl | ⟨2, _⟩ => rfl)
/-- The transpose in the two feature axes reads its operand with `p` and `q` exchanged. -/
theorem idx6 (b : Fin 32) (p q : Fin 64) : idx_main_v6 (ix3 b p q) = ix3 b q p :=
  funext fun a => Fin.ext (by match a with | ⟨0, _⟩ => rfl | ⟨1, _⟩ => rfl | ⟨2, _⟩ => rfl)

/-! ## The three products are Gram entries -/

theorem prod0 (x0 : (⟨S32x8192x64, .f32⟩ : BufTy).Contents (Elt Ideal)) (b : Fin 32) (p q : Fin 64) :
    val_main_v0 (F := Ideal) x0 (ix3 b p q) = Cert.Gram.gram x0 x0 b p q := by
  rw [val_main_v0_apply]
  simp only [lidx0, ridx0]
  rfl
theorem prod1 (x1 : (⟨S32x8192x64, .f32⟩ : BufTy).Contents (Elt Ideal)) (b : Fin 32) (p q : Fin 64) :
    val_main_v1 (F := Ideal) x1 (ix3 b p q) = Cert.Gram.gram x1 x1 b p q := by
  rw [val_main_v1_apply]
  simp only [lidx1, ridx1]
  rfl
theorem prod2 (x0 x1 : (⟨S32x8192x64, .f32⟩ : BufTy).Contents (Elt Ideal)) (b : Fin 32) (p q : Fin 64) :
    val_main_v2 (F := Ideal) x0 x1 (ix3 b p q) = Cert.Gram.gram x0 x1 b p q := by
  rw [val_main_v2_apply]
  simp only [lidx2, ridx2]
  rfl

/-! ## The two results -/

/-- The first result: the two self-products added, times 2⁻¹³. -/
theorem first_eq (x0 x1 : (⟨S32x8192x64, .f32⟩ : BufTy).Contents (Elt Ideal)) :
    val_main_v5 (F := Ideal) x0 x1 = Cert.Gram.re x0 x1 := by
  funext i
  obtain ⟨b, p, q, rfl⟩ : ∃ (b : Fin 32) (p q : Fin 64), i = ix3 b p q := ⟨i 0, i 1, i 2, eq_ix3 i⟩
  rw [val_main_v5_apply, val_main_v3_apply, prod0, prod1, val_main_v4_apply, val_main_cst_apply]
  rfl

/-- The second result: the cross product less its transpose, times 2⁻¹³. -/
theorem second_eq (x0 x1 : (⟨S32x8192x64, .f32⟩ : BufTy).Contents (Elt Ideal)) :
    val_main_v9 (F := Ideal) x0 x1 = Cert.Gram.im x0 x1 := by
  funext i
  obtain ⟨b, p, q, rfl⟩ : ∃ (b : Fin 32) (p q : Fin 64), i = ix3 b p q := ⟨i 0, i 1, i 2, eq_ix3 i⟩
  rw [val_main_v9_apply, val_main_v7_apply, val_main_v6_apply, idx6, prod2, prod2, val_main_v8_apply, val_main_cst_0_apply]
  rfl

end Cert.ReferenceIdeal.RefGram

end
-- ==== Proof.BodyGram.lean ====
/-
  What the kernel body stores, at coordinates, over the extended reals.

  One grid point holds one batch: two loaded blocks `x0, x1` of shape [1, 8192, 64].  Each is re-laid as
  [8192, 64] (the unit axis dropped; the change of float format is the identity on extended reals), and the
  body forms three products that contract the position axis of BOTH operands into a zero accumulator:
  entry `(p, q)` is the sum over positions `s` of `l[s, p] · r[s, q]`.  The first store is the sum of the two
  self-products times the word of 2⁻¹³; the second is the cross product less its own transpose, which
  exchanges `p` and `q`, times the same word.  Both stores put the unit axis back.
-/
import proofs.«143372_j34583076667832_1_alg».proof.Proof.Gen.KernelIdeal.Skeleton
import proofs.«143372_j34583076667832_1_alg».proof.Proof.GramSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.ShloMosaic.ValueIdx
open scoped BigOperators

/-! ## The product's operand indices: position on axis 0 (contracted), feature on axis 1 -/

theorem lhs_axis0 (i : S64x64.Idx) (k : dot_S8192x64_S8192x64_S64x64_0_0_1_1_n_n.contr.Idx) :
    (dot_S8192x64_S8192x64_S64x64_0_0_1_1_n_n.lhsIdx i k 0).val = (k ⟨0, by decide⟩).val :=
  dot_S8192x64_S8192x64_S64x64_0_0_1_1_n_n.lhsIdx_val_of_single rfl i k
theorem lhs_axis1 (i : S64x64.Idx) (k : dot_S8192x64_S8192x64_S64x64_0_0_1_1_n_n.contr.Idx) :
    (dot_S8192x64_S8192x64_S64x64_0_0_1_1_n_n.lhsIdx i k 1).val = (i 0).val := by
  unfold DotDims.lhsIdx
  rw [dif_neg (show ¬(1 : Fin S8192x64.rank) ∈ dot_S8192x64_S8192x64_S64x64_0_0_1_1_n_n.lhsBatch by decide), dif_pos (show (1 : Fin S8192x64.rank) ∈ dot_S8192x64_S8192x64_S64x64_0_0_1_1_n_n.lhsNonContracting by decide)]
  rfl
theorem rhs_axis0 (i : S64x64.Idx) (k : dot_S8192x64_S8192x64_S64x64_0_0_1_1_n_n.contr.Idx) :
    (dot_S8192x64_S8192x64_S64x64_0_0_1_1_n_n.rhsIdx i k 0).val = (k ⟨0, by decide⟩).val :=
  dot_S8192x64_S8192x64_S64x64_0_0_1_1_n_n.rhsIdx_val_of_single rfl i k
theorem rhs_axis1 (i : S64x64.Idx) (k : dot_S8192x64_S8192x64_S64x64_0_0_1_1_n_n.contr.Idx) :
    (dot_S8192x64_S8192x64_S64x64_0_0_1_1_n_n.rhsIdx i k 1).val = (i 1).val := by
  unfold DotDims.rhsIdx
  rw [dif_neg (show ¬(1 : Fin S8192x64.rank) ∈ dot_S8192x64_S8192x64_S64x64_0_0_1_1_n_n.rhsBatch by decide), dif_pos (show (1 : Fin S8192x64.rank) ∈ dot_S8192x64_S8192x64_S64x64_0_0_1_1_n_n.rhsNonContracting by decide)]
  rfl

/-- A product into the zero accumulator, at features `(p, q)`: the positions summed out. -/
theorem product_at (l r : FVec Ideal S8192x64 .bf16) (p q : Fin 64) :
    matmul dot_S8192x64_S8192x64_S64x64_0_0_1_1_n_n none l r (constant (F := Ideal) S64x64 .f32 0x00000000#32) (ix2 p q)
      = ∑ s : Fin 8192, l (ix2 s p) * r (ix2 s q) := by
  simp only [matmul]
  rw [Ideal.matmul_constant_zero_apply, ← Equiv.sum_comp (ValueIdx.contrEquiv1 dot_S8192x64_S8192x64_S64x64_0_0_1_1_n_n 8192 rfl rfl).symm]
  refine Finset.sum_congr rfl fun s _ => ?_
  have hs := ValueIdx.contrEquiv1_symm_val dot_S8192x64_S8192x64_S64x64_0_0_1_1_n_n 8192 rfl rfl s
  have el : dot_S8192x64_S8192x64_S64x64_0_0_1_1_n_n.lhsIdx (ix2 p q) ((ValueIdx.contrEquiv1 dot_S8192x64_S8192x64_S64x64_0_0_1_1_n_n 8192 rfl rfl).symm s) = ix2 s p := funext fun a => Fin.ext (by
    match a with
    | ⟨0, _⟩ => exact (lhs_axis0 _ _).trans hs
    | ⟨1, _⟩ => exact lhs_axis1 _ _)
  have er : dot_S8192x64_S8192x64_S64x64_0_0_1_1_n_n.rhsIdx (ix2 p q) ((ValueIdx.contrEquiv1 dot_S8192x64_S8192x64_S64x64_0_0_1_1_n_n 8192 rfl rfl).symm s) = ix2 s q := funext fun a => Fin.ext (by
    match a with
    | ⟨0, _⟩ => exact (rhs_axis0 _ _).trans hs
    | ⟨1, _⟩ => exact rhs_axis1 _ _)
  rw [el, er]

/-- The transpose of a square value reads it with the two features exchanged. -/
theorem swap_at (v : FVec Ideal S64x64 .f32) (p q : Fin 64) :
    transpose S64x64 [1, 0] v Facts₀.transposes_S64x64_p1_0_S64x64 (ix2 p q) = v (ix2 q p) :=
  transpose_apply [1, 0] v Facts₀.transposes_S64x64_p1_0_S64x64 (ix2 p q) (ix2 q p) (fun b => match b with
    | ⟨0, _⟩ => rfl
    | ⟨1, _⟩ => rfl)

/-! ## The loaded blocks as the products' operands -/

/-- The first operand at `(s, p)` is the first loaded block at `(0, s, p)`. -/
theorem operand0_at (x0 : Vec Ideal S1x8192x64 .f32) (s : Fin 8192) (p : Fin 64) :
    k0_pay1 (F := Ideal) x0 (ix2 s p) = x0 (ix3 (0 : Fin 1) s p) := by
  unfold k0_pay1
  exact shapeCast_1ab_ab_apply x0 _ s p

/-- The second operand at `(s, p)` is the second loaded block at `(0, s, p)`. -/
theorem operand1_at (x1 : Vec Ideal S1x8192x64 .f32) (s : Fin 8192) (p : Fin 64) :
    k0_pay2 (F := Ideal) x1 (ix2 s p) = x1 (ix3 (0 : Fin 1) s p) := by
  unfold k0_pay2
  exact shapeCast_1ab_ab_apply x1 _ s p

/-! ## The two stores at coordinates -/

/-- The first store: the two self-products added, times 2⁻¹³. -/
theorem store_re_at (x0 x1 : Vec Ideal S1x8192x64 .f32) (u : Fin 1) (p q : Fin 64) :
    k0_pay3 (F := Ideal) x0 x1 (ix3 u p q)
      = ((∑ s : Fin 8192, x0 (ix3 (0 : Fin 1) s p) * x0 (ix3 (0 : Fin 1) s q))
          + ∑ s : Fin 8192, x1 (ix3 (0 : Fin 1) s p) * x1 (ix3 (0 : Fin 1) s q)) * Cert.Gram.invLen := by
  unfold k0_pay3
  rw [shapeCast_ab_1ab_apply, mulf_apply, addf_apply, product_at, product_at, broadcast_apply]
  simp only [operand0_at, operand1_at]
  rfl

/-- The second store: the cross product less its transpose, times 2⁻¹³. -/
theorem store_im_at (x0 x1 : Vec Ideal S1x8192x64 .f32) (u : Fin 1) (p q : Fin 64) :
    k0_pay4 (F := Ideal) x0 x1 (ix3 u p q)
      = ((∑ s : Fin 8192, x0 (ix3 (0 : Fin 1) s p) * x1 (ix3 (0 : Fin 1) s q))
          - ∑ s : Fin 8192, x0 (ix3 (0 : Fin 1) s q) * x1 (ix3 (0 : Fin 1) s p)) * Cert.Gram.invLen := by
  unfold k0_pay4
  rw [shapeCast_ab_1ab_apply, mulf_apply, subf_apply, swap_at, product_at, product_at, broadcast_apply]
  simp only [operand0_at, operand1_at]
  rfl

end Cert.KernelIdeal.Body

end
-- ==== Proof.KernelGram.lean ====
/-
  The kernel's two result arrays after the run are the specification's arrays.

  The grid has one point per batch.  At point `t` every window's block index is `(t, 0, 0)`: the two input
  blocks are batch `t` of the two argument arrays (shape [1, 8192, 64]), and the two output blocks are batch
  `t` of the two result arrays (shape [1, 64, 64]).  So what point `t` writes back is, entry by entry, the
  body's store over batch `t` of the arguments, which is batch `t` of `Gram.re` (resp. `Gram.im`) of the whole
  argument arrays.  The 32 output blocks tile each result array (index `(b, p, q)` lies in point `b`'s block),
  so each result array ends holding that function everywhere.
-/
import proofs.«143372_j34583076667832_1_alg».proof.Proof.Gen.KernelIdeal.Value
import proofs.«143372_j34583076667832_1_alg».proof.Proof.BodyGram
import Idealize.ShloMosaic.Lib.Pipeline.Value

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0, 0] : Fin 3 → Nat) = fun _ => 0 :=
  funext fun a => by match a with | ⟨0, _⟩ => rfl | ⟨1, _⟩ => rfl | ⟨2, _⟩ => rfl

/-- The batch a grid point works on. -/
abbrev batchOf (t : Fin cfg0.N) : Fin 32 := t.cast N_0

/-- The printed index maps, decided over the 32 points: every window's block index at point `t` is `(t, 0, 0)`. -/
theorem index_maps : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-! ## The input blocks are batch slices of the argument arrays -/

theorem block0_at (c : Dev nD) (t : Fin cfg0.N) (s : Fin 8192) (p : Fin 64) :
    (iblk m c 0 t : Vec Ideal S1x8192x64 .f32) (ix3 (0 : Fin 1) s p)
      = (V m c main_arg0 : S32x8192x64.Idx → EReal) (ix3 (batchOf t) s p) := by
  obtain ⟨⟨e0, e1, e2⟩, -⟩ := index_maps t
  unfold iblk
  rw [View.read_apply]
  show V m c main_arg0 _ = V m c main_arg0 _
  congr 1
  funext a
  apply Fin.ext
  match a with
  | ⟨0, _⟩ => show win0_0.index t 0 * 1 + 1 * ((0 : Fin 1) : Nat) = t.val; rw [e0]; show t.val * 1 + 1 * 0 = t.val; omega
  | ⟨1, _⟩ => show win0_0.index t 1 * 8192 + 1 * s.val = s.val; rw [e1]; omega
  | ⟨2, _⟩ => show win0_0.index t 2 * 64 + 1 * p.val = p.val; rw [e2]; omega

theorem block1_at (c : Dev nD) (t : Fin cfg0.N) (s : Fin 8192) (p : Fin 64) :
    (iblk m c 1 t : Vec Ideal S1x8192x64 .f32) (ix3 (0 : Fin 1) s p)
      = (V m c main_arg1 : S32x8192x64.Idx → EReal) (ix3 (batchOf t) s p) := by
  obtain ⟨-, ⟨e0, e1, e2⟩, -⟩ := index_maps t
  unfold iblk
  rw [View.read_apply]
  show V m c main_arg1 _ = V m c main_arg1 _
  congr 1
  funext a
  apply Fin.ext
  match a with
  | ⟨0, _⟩ => show win0_1.index t 0 * 1 + 1 * ((0 : Fin 1) : Nat) = t.val; rw [e0]; show t.val * 1 + 1 * 0 = t.val; omega
  | ⟨1, _⟩ => show win0_1.index t 1 * 8192 + 1 * s.val = s.val; rw [e1]; omega
  | ⟨2, _⟩ => show win0_1.index t 2 * 64 + 1 * p.val = p.val; rw [e2]; omega

/-! ## The body's stores over a batch slice are the specification at that batch -/

/-- If the two loaded blocks are batch `b` of `X0, X1`, the first store at `j` is `Gram.re X0 X1` at any array index
    `i` with batch `b` and `j`'s two features. -/
theorem store_re_of_slice (X0 X1 : S32x8192x64.Idx → EReal) (x0 x1 : Vec Ideal S1x8192x64 .f32) (b : Fin 32)
    (h0 : ∀ (s : Fin 8192) (p : Fin 64), x0 (ix3 (0 : Fin 1) s p) = X0 (ix3 b s p))
    (h1 : ∀ (s : Fin 8192) (p : Fin 64), x1 (ix3 (0 : Fin 1) s p) = X1 (ix3 b s p))
    (j : S1x64x64.Idx) (i : S32x64x64.Idx)
    (hi0 : (i 0).val = b.val) (hi1 : (i 1).val = (j 1).val) (hi2 : (i 2).val = (j 2).val) :
    k0_pay3 (F := Ideal) x0 x1 j = Cert.Gram.re X0 X1 i := by
  obtain ⟨u, p, q, rfl⟩ : ∃ (u : Fin 1) (p q : Fin 64), j = ix3 u p q := ⟨j 0, j 1, j 2, eq_ix3 j⟩
  obtain rfl : i = ix3 b p q := funext fun a => Fin.ext (by
    match a with
    | ⟨0, _⟩ => exact hi0
    | ⟨1, _⟩ => exact hi1
    | ⟨2, _⟩ => exact hi2)
  rw [Cert.KernelIdeal.Body.store_re_at, Cert.Gram.re_ix3]
  simp only [h0, h1]
  rfl

/-- The same for the second store and `Gram.im`. -/
theorem store_im_of_slice (X0 X1 : S32x8192x64.Idx → EReal) (x0 x1 : Vec Ideal S1x8192x64 .f32) (b : Fin 32)
    (h0 : ∀ (s : Fin 8192) (p : Fin 64), x0 (ix3 (0 : Fin 1) s p) = X0 (ix3 b s p))
    (h1 : ∀ (s : Fin 8192) (p : Fin 64), x1 (ix3 (0 : Fin 1) s p) = X1 (ix3 b s p))
    (j : S1x64x64.Idx) (i : S32x64x64.Idx)
    (hi0 : (i 0).val = b.val) (hi1 : (i 1).val = (j 1).val) (hi2 : (i 2).val = (j 2).val) :
    k0_pay4 (F := Ideal) x0 x1 j = Cert.Gram.im X0 X1 i := by
  obtain ⟨u, p, q, rfl⟩ : ∃ (u : Fin 1) (p q : Fin 64), j = ix3 u p q := ⟨j 0, j 1, j 2, eq_ix3 j⟩
  obtain rfl : i = ix3 b p q := funext fun a => Fin.ext (by
    match a with
    | ⟨0, _⟩ => exact hi0
    | ⟨1, _⟩ => exact hi1
    | ⟨2, _⟩ => exact hi2)
  rw [Cert.KernelIdeal.Body.store_im_at, Cert.Gram.im_ix3]
  simp only [h0, h1]
  rfl

/-! ## What each point writes back -/

/-- Point `t` writes back block `t` of `Gram.re` of the argument arrays. -/
theorem flushed_re (c : Dev nD) (t : Fin cfg0.N) :
    (dats m 0 c).flushed 2 t = ((cfg0.win 2).blk t).view.read (Elt Ideal) (Cert.Gram.re (V m c main_arg0) (V m c main_arg1)) := by
  rw [Cert.KernelIdeal.Value.flushed2]
  unfold out0_2
  rw [View.canon_unit_zero zero_offsets]
  simp only [View.ld_unit_zero (S := S1x8192x64) zero_offsets]
  obtain ⟨-, -, ⟨e0, e1, e2⟩, -⟩ := index_maps t
  funext j
  show k0_pay3 (F := Ideal) (iblk m c 0 t) (iblk m c 1 t) j
    = Cert.Gram.re (V m c main_arg0) (V m c main_arg1) (((cfg0.win 2).blk t).view.emb j)
  refine store_re_of_slice (V m c main_arg0) (V m c main_arg1) (iblk m c 0 t) (iblk m c 1 t) (batchOf t)
    (block0_at m c t) (block1_at m c t) j (((cfg0.win 2).blk t).view.emb j) ?_ ?_ ?_
  · show win0_2.index t 0 * 1 + 1 * (j 0).val = t.val
    have hj : (j 0).val < 1 := (j 0).isLt
    omega
  · show win0_2.index t 1 * 64 + 1 * (j 1).val = (j 1).val
    omega
  · show win0_2.index t 2 * 64 + 1 * (j 2).val = (j 2).val
    omega

/-- Point `t` writes back block `t` of `Gram.im` of the argument arrays. -/
theorem flushed_im (c : Dev nD) (t : Fin cfg0.N) :
    (dats m 0 c).flushed 3 t = ((cfg0.win 3).blk t).view.read (Elt Ideal) (Cert.Gram.im (V m c main_arg0) (V m c main_arg1)) := by
  rw [Cert.KernelIdeal.Value.flushed3]
  unfold out0_3
  rw [View.canon_unit_zero zero_offsets]
  simp only [View.ld_unit_zero (S := S1x8192x64) zero_offsets]
  obtain ⟨-, -, -, ⟨e0, e1, e2⟩⟩ := index_maps t
  funext j
  show k0_pay4 (F := Ideal) (iblk m c 0 t) (iblk m c 1 t) j
    = Cert.Gram.im (V m c main_arg0) (V m c main_arg1) (((cfg0.win 3).blk t).view.emb j)
  refine store_im_of_slice (V m c main_arg0) (V m c main_arg1) (iblk m c 0 t) (iblk m c 1 t) (batchOf t)
    (block0_at m c t) (block1_at m c t) j (((cfg0.win 3).blk t).view.emb j) ?_ ?_ ?_
  · show win0_3.index t 0 * 1 + 1 * (j 0).val = t.val
    have hj : (j 0).val < 1 := (j 0).isLt
    omega
  · show win0_3.index t 1 * 64 + 1 * (j 1).val = (j 1).val
    omega
  · show win0_3.index t 2 * 64 + 1 * (j 2).val = (j 2).val
    omega

/-! ## The output blocks tile the result arrays -/

/-- An index is in point `t`'s block of the first result iff each coordinate is in the block's range on its axis. -/
theorem mem_block_re (t : Fin cfg0.N) (i : S32x64x64.Idx) :
    i ∈ ((cfg0.win 2).blk t).view.set ↔ ∀ a : Fin 3, win0_2.index t a * S1x64x64.size a ≤ (i a).val ∧ (i a).val < win0_2.index t a * S1x64x64.size a + S1x64x64.size a := by
  show i ∈ ((View.whole main_v0_0).slice (win0_2.rect t)).set ↔ _
  rw [View.set_slice_whole, Rect.mem_set_unit]
  exact Iff.rfl

theorem mem_block_im (t : Fin cfg0.N) (i : S32x64x64.Idx) :
    i ∈ ((cfg0.win 3).blk t).view.set ↔ ∀ a : Fin 3, win0_3.index t a * S1x64x64.size a ≤ (i a).val ∧ (i a).val < win0_3.index t a * S1x64x64.size a + S1x64x64.size a := by
  show i ∈ ((View.whole main_v0_1).slice (win0_3.rect t)).set ↔ _
  rw [View.set_slice_whole, Rect.mem_set_unit]
  exact Iff.rfl

/-- Index `(b, p, q)` of the first result lies in point `b`'s block. -/
theorem cover_re (i : S32x64x64.Idx) : ∃ t : Fin cfg0.N, (cfg0.win 2).flush t = true ∧ i ∈ ((cfg0.win 2).blk t).view.set := by
  have hb : (i 0).val < 32 := (i 0).isLt
  have hp : (i 1).val < 64 := (i 1).isLt
  have hq : (i 2).val < 64 := (i 2).isLt
  refine ⟨(⟨(i 0).val, by rw [show cfg0.N = 32 from N_0]; exact hb⟩ : Fin cfg0.N), flush0_2 _, ?_⟩
  rw [mem_block_re]
  obtain ⟨-, -, ⟨e0, e1, e2⟩, -⟩ := index_maps (⟨(i 0).val, by rw [show cfg0.N = 32 from N_0]; exact hb⟩ : Fin cfg0.N)
  have e0' : win0_2.index (⟨(i 0).val, by rw [show cfg0.N = 32 from N_0]; exact hb⟩ : Fin cfg0.N) 0 = (i 0).val := e0
  intro a
  match a with
  | ⟨0, _⟩ => show win0_2.index _ 0 * 1 ≤ (i 0).val ∧ (i 0).val < win0_2.index _ 0 * 1 + 1; omega
  | ⟨1, _⟩ => show win0_2.index _ 1 * 64 ≤ (i 1).val ∧ (i 1).val < win0_2.index _ 1 * 64 + 64; omega
  | ⟨2, _⟩ => show win0_2.index _ 2 * 64 ≤ (i 2).val ∧ (i 2).val < win0_2.index _ 2 * 64 + 64; omega

/-- Index `(b, p, q)` of the second result lies in point `b`'s block. -/
theorem cover_im (i : S32x64x64.Idx) : ∃ t : Fin cfg0.N, (cfg0.win 3).flush t = true ∧ i ∈ ((cfg0.win 3).blk t).view.set := by
  have hb : (i 0).val < 32 := (i 0).isLt
  have hp : (i 1).val < 64 := (i 1).isLt
  have hq : (i 2).val < 64 := (i 2).isLt
  refine ⟨(⟨(i 0).val, by rw [show cfg0.N = 32 from N_0]; exact hb⟩ : Fin cfg0.N), flush0_3 _, ?_⟩
  rw [mem_block_im]
  obtain ⟨-, -, -, ⟨e0, e1, e2⟩⟩ := index_maps (⟨(i 0).val, by rw [show cfg0.N = 32 from N_0]; exact hb⟩ : Fin cfg0.N)
  have e0' : win0_3.index (⟨(i 0).val, by rw [show cfg0.N = 32 from N_0]; exact hb⟩ : Fin cfg0.N) 0 = (i 0).val := e0
  intro a
  match a with
  | ⟨0, _⟩ => show win0_3.index _ 0 * 1 ≤ (i 0).val ∧ (i 0).val < win0_3.index _ 0 * 1 + 1; omega
  | ⟨1, _⟩ => show win0_3.index _ 1 * 64 ≤ (i 1).val ∧ (i 1).val < win0_3.index _ 1 * 64 + 64; omega
  | ⟨2, _⟩ => show win0_3.index _ 2 * 64 ≤ (i 2).val ∧ (i 2).val < win0_3.index _ 2 * 64 + 64; omega

/-! ## The arrays after the run, and the run -/

theorem final_re (c : Dev nD) :
    (dats m 0 c).arrAt 2 cfg0.N = Cert.Gram.re (m ((c : Thread nD τ).loc main_arg0)) (m ((c : Thread nD τ).loc main_arg1)) :=
  (dats m 0 c).arrAt_eq_of_cover 2 (Cert.Gram.re (V m c main_arg0) (V m c main_arg1)) (fun t _ => flushed_re m c t) cover_re

theorem final_im (c : Dev nD) :
    (dats m 0 c).arrAt 3 cfg0.N = Cert.Gram.im (m ((c : Thread nD τ).loc main_arg0)) (m ((c : Thread nD τ).loc main_arg1)) :=
  (dats m 0 c).arrAt_eq_of_cover 3 (Cert.Gram.im (V m c main_arg0) (V m c main_arg1)) (fun t _ => flushed_im m c t) cover_im

/-- Every weakly fair execution ends with the two result arrays at `Gram.re` / `Gram.im` of the argument arrays, the
    arguments unchanged. -/
theorem run : θ_run defs (onTc (τ := τ) (main (F := Ideal))) ⟨m, fun _ => 0, ρ⟩ fun r => ∀ c : Dev nD,
      r.2.mem ((c : Thread nD τ).loc main_v0_0) = Cert.Gram.re (m ((c : Thread nD τ).loc main_arg0)) (m ((c : Thread nD τ).loc main_arg1))
      ∧ r.2.mem ((c : Thread nD τ).loc main_v0_1) = Cert.Gram.im (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_re m c), (h c).2.1.trans (final_im m c), (h c).2.2⟩)
    (Cert.KernelIdeal.Value.run_blocks m ρ)

end Cert.KernelIdeal.Whole

end
-- ==== Proof.lean ====
/-
  Both programs compute, for arrays `R, I` of shape [32, 8192, 64] (batch, position, feature),

    first result  [b, p, q] = (Σₛ R[b,s,p]·R[b,s,q] + Σₛ I[b,s,p]·I[b,s,q]) · 2⁻¹³
    second result [b, p, q] = (Σₛ R[b,s,p]·I[b,s,q] − Σₛ R[b,s,q]·I[b,s,p]) · 2⁻¹³

  over the extended reals, the positions `s` summed out and 2⁻¹³ the same f32 word on both sides.  The kernel does
  it one batch per grid point, each product a contraction of the position axis into a zero accumulator and the
  subtrahend a transpose of the cross product; the reference does it for all batches at once with the batch
  axis kept, the subtrahend a transpose of the two feature axes.  The two agree term by term (Proof/GramSpec.lean
  states the common function, Proof/ReferenceGram.lean and Proof/KernelGram.lean that each side is it), with no
  rearrangement of any sum, so the finiteness of the inputs is never used.  The word-level kernel differs from
  the idealized one by no rewrite, so that conjunct is `True`.
-/
import proofs.«143372_j34583076667832_1_alg».proof.Defs
import proofs.«143372_j34583076667832_1_alg».proof.Proof.Gen.Kernel
import proofs.«143372_j34583076667832_1_alg».proof.Proof.Gen.Kernel.Skeleton
import proofs.«143372_j34583076667832_1_alg».proof.Proof.Gen.Kernel.Launch
import proofs.«143372_j34583076667832_1_alg».proof.Proof.Gen.Kernel.Points
import proofs.«143372_j34583076667832_1_alg».proof.Proof.Gen.Kernel.Frame
import proofs.«143372_j34583076667832_1_alg».proof.Proof.Gen.KernelIdeal
import proofs.«143372_j34583076667832_1_alg».proof.Proof.Gen.KernelIdeal.Skeleton
import proofs.«143372_j34583076667832_1_alg».proof.Proof.Gen.KernelIdeal.Launch
import proofs.«143372_j34583076667832_1_alg».proof.Proof.Gen.KernelIdeal.Points
import proofs.«143372_j34583076667832_1_alg».proof.Proof.Gen.KernelIdeal.Frame
import proofs.«143372_j34583076667832_1_alg».proof.Proof.Gen.ReferenceIdeal
import proofs.«143372_j34583076667832_1_alg».proof.Proof.Gen.Pre_finite_inputs
import proofs.«143372_j34583076667832_1_alg».proof.Proof.Gen.KernelIdeal.Value
import proofs.«143372_j34583076667832_1_alg».proof.Proof.Gen.ReferenceIdeal.Run
import proofs.«143372_j34583076667832_1_alg».proof.Proof.Gen.ReferenceIdeal.Read
import proofs.«143372_j34583076667832_1_alg».proof.Proof.GramSpec
import proofs.«143372_j34583076667832_1_alg».proof.Proof.ReferenceGram
import proofs.«143372_j34583076667832_1_alg».proof.Proof.KernelGram
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the two arguments the idealized kernel and the idealized reference end with equal
    results: each result array is `Gram.re` (resp. `Gram.im`) of the arguments. -/
theorem algebraic : Cert.algebraic_KernelIdeal_ReferenceIdeal := by
  intro m ρ m' ρ' _ hagree
  refine ⟨fun c => Cert.Gram.re (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Gram.im (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v5_eq, Cert.ReferenceIdeal.RefGram.first_eq, (hagree c).1, (hagree c).2]
  · rw [Cert.ReferenceIdeal.Read.val_main_v9_eq, Cert.ReferenceIdeal.RefGram.second_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
